-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S512x1024 : Shape := ⟨2, ![512, 1024]⟩
abbrev S16777216 : Shape := ⟨1, ![16777216]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S16777216 : S_.BroadcastsInDim S16777216 (![] : Fin 0 → Fin S16777216.rank)
  reducesTo_S16777216_S_d0 : S16777216.ReducesTo [0] S_

variable [Facts]

def fn_part3 {F : FTy → Type} [FloatOps F] (main_arg2 : IVec S16777216 32) (main_v48 : IVec S_ 1) (main_v50 : IVec S16777216 1) : IVec S_ 1 :=
  let main_c_19 : IVec S_ 1 := constantI S_ 1 1#1
  let main_v51 : IVec S_ 1 := (fun x v => Host.reduce IntOp.andi x v reducesTo_S16777216_S_d0 h_S_) main_v50 main_c_19
  let main_v52 : IVec S_ 1 := andi main_v48 main_v51
  let main_c_20 : IVec S_ 32 := constantI S_ 32 512#32
  let main_v53 : IVec S16777216 32 := broadcastInDim S16777216 ![] bcast_S_S16777216 main_c_20
  let main_v54 : IVec S16777216 1 := cmpi .slt main_arg2 main_v53
  let main_c_21 : IVec S_ 1 := constantI S_ 1 1#1
  let main_v55 : IVec S_ 1 := (fun x v => Host.reduce IntOp.andi x v reducesTo_S16777216_S_d0 h_S_) main_v54 main_c_21
  let main_v56 : IVec S_ 1 := andi main_v52 main_v55
  main_v56

def fn_part2 {F : FTy → Type} [FloatOps F] (main_arg2 : IVec S16777216 32) (main_arg8 : FVec F S1024 .f32) (main_arg9 : FVec F S1024x2 .f32) (main_arg10 : FVec F S2 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2 .f32 := Host.absf main_arg9
  let main_cst_14 : FVec F S_ .f32 := constant S_ .f32 0x7F800000#32
  let main_v40 : FVec F S1024x2 .f32 := broadcastInDim S1024x2 ![] bcast_S_S1024x2 main_cst_14
  let main_v41 : IVec S1024x2 1 := cmpf .olt main_v39 main_v40
  let main_c_15 : IVec S_ 1 := constantI S_ 1 1#1
  let main_v42 : IVec S_ 1 := (fun x v => Host.reduce IntOp.andi x v reducesTo_S1024x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 0#32
  let main_v49 : IVec S16777216 32 := broadcastInDim S16777216 ![] bcast_S_S16777216 main_c_18
  let main_v50 : IVec S16777216 1 := cmpi .sge main_arg2 main_v49
  fn_part3 (F := F) main_arg2 main_v48 main_v50

def fn_part1 {F : FTy → Type} [FloatOps F] (main_arg2 : IVec S16777216 32) (main_arg5 : FVec F S1024x2 .f32) (main_arg6 : FVec F S2 .f32) (main_arg7 : FVec F S1024x1024 .f32) (main_arg8 : FVec F S1024 .f32) (main_arg9 : FVec F S1024x2 .f32) (main_arg10 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2 .f32 := Host.absf main_arg5
  let main_cst_6 : FVec F S_ .f32 := constant S_ .f32 0x7F800000#32
  let main_v20 : FVec F S1024x2 .f32 := broadcastInDim S1024x2 ![] bcast_S_S1024x2 main_cst_6
  let main_v21 : IVec S1024x2 1 := cmpf .olt main_v19 main_v20
  let main_c_7 : IVec S_ 1 := constantI S_ 1 1#1
  let main_v22 : IVec S_ 1 := (fun x v => Host.reduce IntOp.andi x v reducesTo_S1024x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S16777216x2 .f32) (main_arg1 : FVec F S512x1024 .f32) (main_arg2 : IVec S16777216 32) (main_arg3 : FVec F S1024x1024 .f32) (main_arg4 : FVec F S1024 .f32) (main_arg5 : FVec F S1024x2 .f32) (main_arg6 : FVec F S2 .f32) (main_arg7 : FVec F S1024x1024 .f32) (main_arg8 : FVec F S1024 .f32) (main_arg9 : FVec F S1024x2 .f32) (main_arg10 : FVec F S2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_arg7 main_arg8 main_arg9 main_arg10 main_v13 main_v16
-- ==== Kernel.lean ====
abbrev S16777216x2 : Shape := ⟨2, ![16777216, 2]⟩
abbrev S512x1024 : Shape := ⟨2, ![512, 1024]⟩
abbrev S16777216 : Shape := ⟨1, ![16777216]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S1x1024 : Shape := ⟨2, ![1, 1024]⟩
abbrev S_ : Shape := ⟨0, ![]⟩
abbrev S512x2 : Shape := ⟨2, ![512, 2]⟩
abbrev S1x2 : Shape := ⟨2, ![1, 2]⟩
abbrev S512x4 : Shape := ⟨2, ![512, 4]⟩
abbrev S16384 : Shape := ⟨1, ![16384]⟩
abbrev S16384x2 : Shape := ⟨2, ![16384, 2]⟩
abbrev S2048 : Shape := ⟨1, ![2048]⟩
abbrev S2048x2 : Shape := ⟨2, ![2048, 2]⟩
abbrev S2048x512 : Shape := ⟨2, ![2048, 512]⟩
abbrev S2048x1 : Shape := ⟨2, ![2048, 1]⟩
abbrev S2048x4 : Shape := ⟨2, ![2048, 4]⟩

abbrev nBuf : Space → Nat
  | .hbm => 35
  | .vmem => 7
  | .smem => 0
  | _ => 0

abbrev bufTy : (tb : Table) → Fin (tcTables nBuf tb) → BufTy
  | .hbm, ⟨0, _⟩ => ⟨S16777216x2, .f32⟩
  | .hbm, ⟨1, _⟩ => ⟨S512x1024, .f32⟩
  | .hbm, ⟨2, _⟩ => ⟨S16777216, .i32⟩
  | .hbm, ⟨3, _⟩ => ⟨S1024x1024, .f32⟩
  | .hbm, ⟨4, _⟩ => ⟨S1024, .f32⟩
  | .hbm, ⟨5, _⟩ => ⟨S1024x2, .f32⟩
  | .hbm, ⟨6, _⟩ => ⟨S2, .f32⟩
  | .hbm, ⟨7, _⟩ => ⟨S1024x1024, .f32⟩
  | .hbm, ⟨8, _⟩ => ⟨S1024, .f32⟩
  | .hbm, ⟨9, _⟩ => ⟨S1024x2, .f32⟩
  | .hbm, ⟨10, _⟩ => ⟨S2, .f32⟩
  | .hbm, ⟨11, _⟩ => ⟨S512x1024, .f32⟩
  | .hbm, ⟨12, _⟩ => ⟨S1x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x2, .f32⟩
  | .hbm, ⟨19, _⟩ => ⟨S1x2, .f32⟩
  | .hbm, ⟨20, _⟩ => ⟨S512x2, .f32⟩
  | .hbm, ⟨21, _⟩ => ⟨S512x2, .f32⟩
  | .hbm, ⟨22, _⟩ => ⟨S512x1024, .f32⟩
  | .hbm, ⟨23, _⟩ => ⟨S1x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x2, .f32⟩
  | .hbm, ⟨30, _⟩ => ⟨S1x2, .f32⟩
  | .hbm, ⟨31, _⟩ => ⟨S512x2, .f32⟩
  | .hbm, ⟨32, _⟩ => ⟨S512x2, .f32⟩
  | .hbm, ⟨33, _⟩ => ⟨S512x4, .f32⟩
  | .hbm, ⟨34, _⟩ => ⟨S16777216x2, .f32⟩
  | .local _ .vmem, ⟨0, _⟩ => ⟨S16384, .i32⟩
  | .local _ .vmem, ⟨1, _⟩ => ⟨S16384, .i32⟩
  | .local _ .vmem, ⟨2, _⟩ => ⟨S16384x2, .f32⟩
  | .local _ .vmem, ⟨3, _⟩ => ⟨S16384x2, .f32⟩
  | .local _ .vmem, ⟨4, _⟩ => ⟨S512x4, .f32⟩
  | .local _ .vmem, ⟨5, _⟩ => ⟨S16384x2, .f32⟩
  | .local _ .vmem, ⟨6, _⟩ => ⟨S16384x2, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1024], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v4 : BitVec 32 := Scalar.muli arg5 c2048_i32
  v4
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c2048_i32 : BitVec 32 := 2048#32
  let v4 : BitVec 32 := Scalar.muli arg5 c2048_i32
  let v5 : BitVec 32 := v4
  let v6 : Index := Scalar.indexCast v5
  ![v6.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v4 : BitVec 32 := Scalar.muli arg5 c2048_i32
  let v5 : BitVec 32 := v4
  let v8 : Index := Scalar.indexCast v5
  let c0_2 : Index := 0#32
  ![v8.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  concatenates_S512x2_S512x2_S512x4_d1 : Shape.Concatenates [S512x2, S512x2] S512x4 1
  inb_S512x4_S512x4_0_0 : ∀ a, (![0, 0] : Fin 2 → Nat) a + S512x4.size a ≤ S512x4.size a
  h_S512x4 : 0 < S512x4.numel
  shapeCasts_S512x4_S512x4 : S512x4.ShapeCasts S512x4
  bitsLt_bf16_f32 : FTy.bits .bf16 < FTy.bits .f32
  h_S2048 : 0 < S2048.numel
  h_S2048x2 : 0 < S2048x2.numel
  iota_S2048x512_d1_w32 : S2048x512.Iotas .tc 32 [1]
  shapeCasts_S2048_S2048x1 : S2048.ShapeCasts S2048x1
  broadcasts_S2048x1_S2048x512 : S2048x1.Broadcasts S2048x512
  natLt_1_32 : 1 < 32
  slices_S2048x4_o0_0_S2048x2 : S2048x4.Slices ![0, 0] S2048x2
  slices_S2048x4_o0_2_S2048x2 : S2048x4.Slices ![0, 2] S2048x2
  dot_S512x1024_S1024x1024_S512x1024_1_0_0_1_n_n_wf : DotDims.WF S512x1024 S1024x1024 S512x1024 [1] [0] [0] [1] [] []
  dot_S512x1024_S1024x2_S512x2_1_0_0_1_n_n_wf : DotDims.WF S512x1024 S1024x2 S512x2 [1] [0] [0] [1] [] []
  dot_S2048x512_S512x4_S2048x4_1_0_0_1_n_n_wf : DotDims.WF S2048x512 S512x4 S2048x4 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048.size a ≤ S16384.size a
  k0_off2_inb : ∀ k0_t1 : Fin k0_t1_loop.trips, ∀ a, (k0_off2 k0_t1) a + S2048x2.size a ≤ S16384x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S16777216.size a
  hwx0_0 : ∀ i : grid0.Coords, EltTy.bits .i32 = 32 ∨ (Rect.block (s := S16777216) S16384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x2.size a ≤ S16777216x2.size a
  hwx0_1 : ∀ i : grid0.Coords, EltTy.bits .f32 = 32 ∨ (Rect.block (s := S16777216x2) S16384x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S512x4.size a
  hwx0_2 : ∀ i : grid0.Coords, EltTy.bits .f32 = 32 ∨ (Rect.block (s := S512x4) S512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x2.size a ≤ S16777216x2.size a
  hwx0_3 : ∀ i : grid0.Coords, EltTy.bits .f32 = 32 ∨ (Rect.block (s := S16777216x2) S16384x2.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf
def dot_S2048x512_S512x4_S2048x4_1_0_0_1_n_n : DotDims S2048x512 S512x4 S2048x4 where
  lhsContracting := [1]
  rhsContracting := [0]
  lhsNonContracting := [0]
  rhsNonContracting := [1]
  lhsBatch := []
  rhsBatch := []
  wf := dot_S2048x512_S512x4_S2048x4_1_0_0_1_n_n_wf

abbrev win0_0 : Pipeline.Window sig grid0 :=
  Pipeline.Window.ofSpec (Memref.whole main_arg2) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16384x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S512x1024 : Shape := ⟨2, ![512, 1024]⟩
abbrev S16777216 : Shape := ⟨1, ![16777216]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S1x1024 : Shape := ⟨2, ![1, 1024]⟩
abbrev S_ : Shape := ⟨0, ![]⟩
abbrev S512x2 : Shape := ⟨2, ![512, 2]⟩
abbrev S1x2 : Shape := ⟨2, ![1, 2]⟩
abbrev S16777216x1 : Shape := ⟨2, ![16777216, 1]⟩

abbrev nBuf : Space → Nat
  | .hbm => 64
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S512x1024, .f32⟩
  | .hbm, ⟨2, _⟩ => ⟨S16777216, .i32⟩
  | .hbm, ⟨3, _⟩ => ⟨S1024x1024, .f32⟩
  | .hbm, ⟨4, _⟩ => ⟨S1024, .f32⟩
  | .hbm, ⟨5, _⟩ => ⟨S1024x2, .f32⟩
  | .hbm, ⟨6, _⟩ => ⟨S2, .f32⟩
  | .hbm, ⟨7, _⟩ => ⟨S1024x1024, .f32⟩
  | .hbm, ⟨8, _⟩ => ⟨S1024, .f32⟩
  | .hbm, ⟨9, _⟩ => ⟨S1024x2, .f32⟩
  | .hbm, ⟨10, _⟩ => ⟨S2, .f32⟩
  | .hbm, ⟨11, _⟩ => ⟨S512x1024, .f32⟩
  | .hbm, ⟨12, _⟩ => ⟨S1x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x2, .f32⟩
  | .hbm, ⟨19, _⟩ => ⟨S1x2, .f32⟩
  | .hbm, ⟨20, _⟩ => ⟨S512x2, .f32⟩
  | .hbm, ⟨21, _⟩ => ⟨S512x2, .f32⟩
  | .hbm, ⟨22, _⟩ => ⟨S512x1024, .f32⟩
  | .hbm, ⟨23, _⟩ => ⟨S1x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x2, .f32⟩
  | .hbm, ⟨30, _⟩ => ⟨S1x2, .f32⟩
  | .hbm, ⟨31, _⟩ => ⟨S512x2, .f32⟩
  | .hbm, ⟨32, _⟩ => ⟨S512x2, .f32⟩
  | .hbm, ⟨33, _⟩ => ⟨S_, .i32⟩
  | .hbm, ⟨34, _⟩ => ⟨S16777216, .i32⟩
  | .hbm, ⟨35, _⟩ => ⟨S16777216, .i1⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S16777216, .i32⟩
  | .hbm, ⟨40, _⟩ => ⟨S16777216x1, .i32⟩
  | .hbm, ⟨41, _⟩ => ⟨S16777216x2, .f32⟩
  | .hbm, ⟨42, _⟩ => ⟨S_, .f32⟩
  | .hbm, ⟨43, _⟩ => ⟨S16777216x2, .f32⟩
  | .hbm, ⟨44, _⟩ => ⟨S16777216x2, .f32⟩
  | .hbm, ⟨45, _⟩ => ⟨S16777216x2, .f32⟩
  | .hbm, ⟨46, _⟩ => ⟨S_, .i32⟩
  | .hbm, ⟨47, _⟩ => ⟨S16777216, .i32⟩
  | .hbm, ⟨48, _⟩ => ⟨S16777216, .i1⟩
  | .hbm, ⟨49, _⟩ => ⟨S_, .i32⟩
  | .hbm, ⟨50, _⟩ => ⟨S16777216, .i32⟩
  | .hbm, ⟨51, _⟩ => ⟨S16777216, .i32⟩
  | .hbm, ⟨52, _⟩ => ⟨S16777216, .i32⟩
  | .hbm, ⟨53, _⟩ => ⟨S16777216x1, .i32⟩
  | .hbm, ⟨54, _⟩ => ⟨S16777216x2, .f32⟩
  | .hbm, ⟨55, _⟩ => ⟨S16777216x2, .f32⟩
  | .hbm, ⟨56, _⟩ => ⟨S16777216x2, .f32⟩
  | .hbm, ⟨57, _⟩ => ⟨S16777216x2, .f32⟩
  | .hbm, ⟨58, _⟩ => ⟨S_, .f32⟩
  | .hbm, ⟨59, _⟩ => ⟨S16777216x2, .f32⟩
  | .hbm, ⟨60, _⟩ => ⟨S16777216x2, .f32⟩
  | .hbm, ⟨61, _⟩ => ⟨S_, .f32⟩
  | .hbm, ⟨62, _⟩ => ⟨S16777216x2, .f32⟩
  | .hbm, ⟨63, _⟩ => ⟨S16777216x2, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x2 : S_.BroadcastsInDim S16777216x2 (![] : Fin 0 → Fin S16777216x2.rank)
  dot_S512x1024_S1024x1024_S512x1024_1_0_0_1_n_n_wf : DotDims.WF S512x1024 S1024x1024 S512x1024 [1] [0] [0] [1] [] []
  dot_S512x1024_S1024x2_S512x2_1_0_0_1_n_n_wf : DotDims.WF S512x1024 S1024x2 S512x2 [1] [0] [0] [1] [] []
  gather_S512x2_S16777216x1_S16777216x2_1_0_n_n_0_1_12_wf : GatherDims.WF S512x2 S16777216x1 S16777216x2 [1] [0] [] [0] [] 1 ![1, 2]

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf
def gather_S512x2_S16777216x1_S16777216x2_1_0_n_n_0_1_12 : GatherDims S512x2 S16777216x1 S16777216x2 where
  offsetDims := [1]
  collapsedSliceDims := [0]
  operandBatchingDims := []
  startIndicesBatchingDims := []
  startIndexMap := [0]
  indexVectorDim := 1
  sliceSizes := ![1, 2]
  wf := gather_S512x2_S16777216x1_S16777216x2_1_0_n_n_0_1_12_wf

class Facts : Prop extends Facts₀ where

variable [Facts]
-- ==== Proof.Spec.lean ====
/-
  The mathematics of "gather a table row per node, then a sigmoid", apart from any program.

  A node's graph id is a signed 32-bit word. A table of 512 rows is read at an id in two ways: by a
  gather, which reads the id signed and clamps it into [0, 511], and by a one-hot product, which sums
  over all 512 rows g the weight [id = g] times the row. For an id in [0, 512) the weight is 1 at
  exactly one row, the id itself, so the sum is that row: the two readings agree there. (Outside that
  range they differ: the sum is 0, the gather reads row 0 or row 511.)

  Per element the result is sigmoid (x * (2 + h2) - h1), the sigmoid being 1 / (1 + exp (-z)) on the
  extended reals however it is spelt: as one operation, or as negate, exponential, add, divide.
-/
import Idealize.ShloMosaic.PureOps.Ideal
import Idealize.ShloMosaic.PureOps.Ideal.Laws
import Idealize.ShloMosaic.Lib.IdealHost
import Idealize.ShloMosaic.Lib.ValueIdx
import Idealize.ShloMosaic.Lib.StableHlo.Predicate

noncomputable section

namespace Cert.GatherSigmoid

open Idealize.ShloMosaic Idealize.ShloMosaic.ValueIdx

/-! ## Graph ids and the row they select -/

/-- A graph id: a word that, read signed, lies in [0, 512). -/
def IsGraphId (b : BitVec 32) : Prop := 0 ≤ b.toInt ∧ b.toInt < 512

/-- The table row a word selects when it is read signed and clamped into the table, as a gather reads it. -/
def row (b : BitVec 32) : Fin 512 := ⟨min b.toInt.toNat 511, by omega⟩

/-- A graph id read signed is the id read unsigned, and that is below 512. -/
theorem toInt_of_isGraphId {b : BitVec 32} (h : IsGraphId b) : b.toInt = (b.toNat : ℤ) ∧ b.toNat < 512 := by
  obtain ⟨h0, h1⟩ := h
  have hlt := b.isLt
  rw [BitVec.toInt_eq_toNat_cond] at h0 h1 ⊢
  split at h0 <;> rename_i hc
  · rw [if_pos hc] at h1 ⊢; exact ⟨rfl, by omega⟩
  · rw [if_neg hc] at h1; omega

/-- The row a graph id selects is the id. -/
theorem row_val {b : BitVec 32} (h : IsGraphId b) : (row b).val = b.toNat := by
  obtain ⟨e, hlt⟩ := toInt_of_isGraphId h
  show min b.toInt.toNat 511 = b.toNat
  rw [e, Int.toNat_natCast]; omega

/-- A graph id equals the word of row g exactly when g is the row it selects. -/
theorem eq_ofNat_iff {b : BitVec 32} (h : IsGraphId b) (g : Fin 512) : b = BitVec.ofNat 32 g.val ↔ g = row b := by
  have hr := row_val h
  have hg := g.isLt
  constructor
  · intro e
    apply Fin.ext
    rw [hr, e, BitVec.toNat_ofNat]
    exact (Nat.mod_eq_of_lt (by omega)).symm
  · intro e
    rw [e, hr, BitVec.ofNat_toNat, BitVec.setWidth_eq]

/-! ## The one-hot weight and the one-hot sum -/

/-- The one-hot weight: the comparison's bit, widened to a word and converted to a float, is 1 where the two words
    are equal and 0 elsewhere. -/
theorem onehot_weight (b g : BitVec 32) :
    (FloatOps.sitofp (F := Ideal) .f32 ((IntOp.cmpi .eq b g).setWidth 32) : Ideal .f32) = if b = g then (1 : EReal) else 0 := by
  by_cases h : b = g
  · rw [if_pos h, StableHlo.Predicate.cmpi_eq_iff.2 h]
    show (((((1#1 : BitVec 1).setWidth 32).toInt : ℤ) : ℝ) : EReal) = 1
    rw [show ((1#1 : BitVec 1).setWidth 32).toInt = 1 by decide]; norm_num
  · rw [if_neg h, eq_zero_of_ne_one (fun e => h (StableHlo.Predicate.cmpi_eq_iff.1 e))]
    show (((((0#1 : BitVec 1).setWidth 32).toInt : ℤ) : ℝ) : EReal) = 0
    rw [show ((0#1 : BitVec 1).setWidth 32).toInt = 0 by decide]; norm_num

/-- The one-hot sum over the 512 rows: for a graph id only its own row has weight 1, so the sum is the table at that
    row. No finiteness is needed: 0 times anything is 0 on the extended reals, and one term survives. -/
theorem onehot_sum {b : BitVec 32} (h : IsGraphId b) (f : Fin 512 → EReal) :
    ∑ g : Fin 512, (if b = BitVec.ofNat 32 g.val then (1 : EReal) else 0) * f g = f (row b) := by
  simp only [ite_mul, one_mul, zero_mul]
  rw [Finset.sum_eq_single (row b)]
  · rw [if_pos ((eq_ofNat_iff h _).2 rfl)]
  · intro g _ hg; rw [if_neg (fun e => hg ((eq_ofNat_iff h g).1 e))]
  · intro hn; exact absurd (Finset.mem_univ _) hn

/-! ## One element of the result -/

/-- One element: the sigmoid of x * (2 + h2) - h1, the 2 the float literal's value. -/
def cell (x h1 h2 : EReal) : EReal := Ideal.logistic (x * (Ideal.ofBits .f32 0x40000000#32 + h2) - h1)

/-- Column q of the 512 x 4 table's left half (h1), and of its right half (h2). -/
def colLo (q : Fin 2) : Fin 4 := ⟨q.val, by omega⟩
def colHi (q : Fin 2) : Fin 4 := ⟨q.val + 2, by omega⟩

/-- The result at node r, column q, from x, the node ids and the two 512 x 2 tables h1, h2: each table read at the
    row the node's id selects. -/
def resultAt (x : (⟨2, ![16777216, 2]⟩ : Shape).Idx → EReal) (b : (⟨1, ![16777216]⟩ : Shape).Idx → BitVec 32)
    (h1 h2 : (⟨2, ![512, 2]⟩ : Shape).Idx → EReal) (r : Fin 16777216) (q : Fin 2) : EReal :=
  cell (x (ix2 r q)) (h1 (ix2 (row (b (ix1 r))) q)) (h2 (ix2 (row (b (ix1 r))) q))

/-- THE RESULT, one function of the arguments, index by index. -/
def result (x : (⟨2, ![16777216, 2]⟩ : Shape).Idx → EReal) (b : (⟨1, ![16777216]⟩ : Shape).Idx → BitVec 32)
    (h1 h2 : (⟨2, ![512, 2]⟩ : Shape).Idx → EReal) : (⟨2, ![16777216, 2]⟩ : Shape).Idx → EReal :=
  fun j => resultAt x b h1 h2 (j 0) (j 1)

/-- The sigmoid spelt as divide, add, exponential, negate with the literal 1.0 is the sigmoid. -/
theorem host_sigmoid (z : EReal) :
    Ideal.div (Ideal.ofBits .f32 0x3F800000#32) (Ideal.ofBits .f32 0x3F800000#32 + Ideal.exp (-z)) = Ideal.logistic z := by
  rw [Ideal.ofBits_one_f32]; rfl

end Cert.GatherSigmoid

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Payload.lean ====
/-
  The kernel body's stored value at an index.

  One trip of the body takes 2048 node ids b, the 2048 x 2 slab of x beside them, and the 512 x 4 table
  T = [h1 | h2]. It forms the 2048 x 512 one-hot matrix [b p = g], multiplies it into T (a 2048 x 4 product
  A, into a zero accumulator), and stores sigmoid (x * (2 + A[:, 2:4]) - A[:, 0:2]).

  At an index (p, j) the product is the sum over the 512 rows g of [b p = g] * T (g, j); for a graph id b p that
  is T (b p, j). So at (p, q) the stored value is the cell of x (p, q), T (b p, q) and T (b p, q + 2).
-/
import proofs.«400905_j59459527246613_2_alg».proof.Proof.Gen.KernelIdeal.Skeleton
import proofs.«400905_j59459527246613_2_alg».proof.Proof.Spec
import proofs.«400905_j59459527246613_2_alg».proof.Proof.LibColumn
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GatherSigmoid

variable {F : FTy → Type} [FloatOps F]

/-! ## The one-hot matrix and its product with the table -/

/-- The one-hot matrix of a slab's ids: entry (p, g) is the float of the bit [b p = g]. -/
def onehot (v7 : Vec F S2048 .i32) : FVec F S2048x512 .bf16 :=
  truncf .bf16 (sitofp .f32 (extui 32 (cmpi .eq (broadcastTo S2048x512 (shapeCast S2048x1 v7 shapeCasts_S2048_S2048x1) broadcasts_S2048x1_S2048x512)
    (iota .tc S2048x512 32 [1] iota_S2048x512_d1_w32)) natLt_1_32)) bitsLt_bf16_f32

/-- The product of the one-hot matrix with the table, accumulated into zeros. -/
def gathered (v0 : Vec F S512x4 .f32) (v7 : Vec F S2048 .i32) : FVec F S2048x4 .f32 :=
  matmul dot_S2048x512_S512x4_S2048x4_1_0_0_1_n_n none (onehot v7)
    (truncf .bf16 (shapeCast S512x4 v0 shapeCasts_S512x4_S512x4) bitsLt_bf16_f32) (constant S2048x4 .f32 0x00000000#32)

/-- The stored value is the sigmoid of x * (2 + right half of the product) - left half of the product. -/
theorem pay_eq (v0 : Vec F S512x4 .f32) (v7 : Vec F S2048 .i32) (v9 : Vec F S2048x2 .f32) :
    k0_pay1 v0 v7 v9 = logistic (subf (mulf v9 (addf (broadcast S2048x2 (Scalar.ofBits .f32 0x40000000#32))
      (extractStridedSlice S2048x2 ![0, 2] (gathered v0 v7) slices_S2048x4_o0_2_S2048x2)))
      (extractStridedSlice S2048x2 ![0, 0] (gathered v0 v7) slices_S2048x4_o0_0_S2048x2)) := rfl

/-- The one-hot matrix at (p, g), on the extended reals: 1 when id p is the word of g, else 0. -/
theorem onehot_apply (v7 : Vec Ideal S2048 .i32) (p : Fin 2048) (g : Fin 512) :
    onehot (F := Ideal) v7 (ix2 p g) = if v7 (ix1 p) = BitVec.ofNat 32 g.val then (1 : EReal) else 0 := by
  have e1 : broadcastTo S2048x512 (shapeCast S2048x1 v7 shapeCasts_S2048_S2048x1) broadcasts_S2048x1_S2048x512 (ix2 p g) = v7 (ix1 p) :=
    (Cert.LibColumn.broadcastTo_a1_ab_apply _ broadcasts_S2048x1_S2048x512 p g).trans
      (Cert.LibColumn.shapeCast_a_a1_apply v7 shapeCasts_S2048_S2048x1 p 0)
  have e2 : iota .tc S2048x512 32 [1] iota_S2048x512_d1_w32 (ix2 p g) = BitVec.ofNat 32 g.val :=
    iota_single_apply .tc S2048x512 32 1 iota_S2048x512_d1_w32 (ix2 p g)
  show (FloatOps.sitofp (F := Ideal) .f32 ((IntOp.cmpi .eq
      (broadcastTo S2048x512 (shapeCast S2048x1 v7 shapeCasts_S2048_S2048x1) broadcasts_S2048x1_S2048x512 (ix2 p g))
      (iota .tc S2048x512 32 [1] iota_S2048x512_d1_w32 (ix2 p g))).setWidth 32) : Ideal .f32) = _
  rw [e1, e2]
  exact onehot_weight _ _

/-! ## The product read at an index -/

theorem lhs_gathered_0 (i : S2048x4.Idx) (q : dot_S2048x512_S512x4_S2048x4_1_0_0_1_n_n.contr.Idx) :
    (dot_S2048x512_S512x4_S2048x4_1_0_0_1_n_n.lhsIdx i q 0).val = (i 0).val := by
  unfold DotDims.lhsIdx
  rw [dif_neg (show ¬(0 : Fin S2048x512.rank) ∈ dot_S2048x512_S512x4_S2048x4_1_0_0_1_n_n.lhsBatch by decide), dif_pos (show (0 : Fin S2048x512.rank) ∈ dot_S2048x512_S512x4_S2048x4_1_0_0_1_n_n.lhsNonContracting by decide)]
  rfl
theorem lhs_gathered_1 (i : S2048x4.Idx) (q : dot_S2048x512_S512x4_S2048x4_1_0_0_1_n_n.contr.Idx) :
    (dot_S2048x512_S512x4_S2048x4_1_0_0_1_n_n.lhsIdx i q 1).val = (q ⟨0, by decide⟩).val :=
  dot_S2048x512_S512x4_S2048x4_1_0_0_1_n_n.lhsIdx_val_of_single rfl i q
theorem rhs_gathered_0 (i : S2048x4.Idx) (q : dot_S2048x512_S512x4_S2048x4_1_0_0_1_n_n.contr.Idx) :
    (dot_S2048x512_S512x4_S2048x4_1_0_0_1_n_n.rhsIdx i q 0).val = (q ⟨0, by decide⟩).val :=
  dot_S2048x512_S512x4_S2048x4_1_0_0_1_n_n.rhsIdx_val_of_single rfl i q
theorem rhs_gathered_1 (i : S2048x4.Idx) (q : dot_S2048x512_S512x4_S2048x4_1_0_0_1_n_n.contr.Idx) :
    (dot_S2048x512_S512x4_S2048x4_1_0_0_1_n_n.rhsIdx i q 1).val = (i 1).val := by
  unfold DotDims.rhsIdx
  rw [dif_neg (show ¬(1 : Fin S512x4.rank) ∈ dot_S2048x512_S512x4_S2048x4_1_0_0_1_n_n.rhsBatch by decide), dif_pos (show (1 : Fin S512x4.rank) ∈ dot_S2048x512_S512x4_S2048x4_1_0_0_1_n_n.rhsNonContracting by decide)]
  rfl

/-- The product at (p, j) is the table at the row id p selects, column j, when id p is a graph id: the sum over the
    512 rows of the one-hot weight times the table collapses to that row. -/
theorem gathered_apply (v0 : Vec Ideal S512x4 .f32) (v7 : Vec Ideal S2048 .i32) (p : Fin 2048) (j : Fin 4)
    (hb : IsGraphId (v7 (ix1 p))) :
    gathered (F := Ideal) v0 v7 (ix2 p j) = v0 (ix2 (row (v7 (ix1 p))) j) := by
  unfold gathered
  simp only [matmul]
  rw [Ideal.matmul_constant_zero_apply, ← Equiv.sum_comp (contrEquiv1 dot_S2048x512_S512x4_S2048x4_1_0_0_1_n_n 512 rfl rfl).symm]
  refine Eq.trans (Finset.sum_congr rfl fun k _ => ?_) (onehot_sum hb fun g => v0 (ix2 g j))
  have hk := contrEquiv1_symm_val dot_S2048x512_S512x4_S2048x4_1_0_0_1_n_n 512 rfl rfl k
  have el : dot_S2048x512_S512x4_S2048x4_1_0_0_1_n_n.lhsIdx (ix2 p j) ((contrEquiv1 dot_S2048x512_S512x4_S2048x4_1_0_0_1_n_n 512 rfl rfl).symm k) = ix2 p k := funext fun a => Fin.ext (by
    match a with
    | ⟨0, _⟩ => exact lhs_gathered_0 _ _
    | ⟨1, _⟩ => exact (lhs_gathered_1 _ _).trans hk)
  have er : dot_S2048x512_S512x4_S2048x4_1_0_0_1_n_n.rhsIdx (ix2 p j) ((contrEquiv1 dot_S2048x512_S512x4_S2048x4_1_0_0_1_n_n 512 rfl rfl).symm k) = ix2 k j := funext fun a => Fin.ext (by
    match a with
    | ⟨0, _⟩ => exact (rhs_gathered_0 _ _).trans hk
    | ⟨1, _⟩ => exact rhs_gathered_1 _ _)
  rw [el, er, onehot_apply]
  show _ * shapeCast S512x4 v0 shapeCasts_S512x4_S512x4 (ix2 k j) = _
  rw [shapeCast_self]

/-! ## The stored value at an index -/

/-- The stored value at (p, q), for a graph id in row p: the cell of x (p, q) and the table's row for that id, at
    columns q (h1) and q + 2 (h2). -/
theorem pay_apply (v0 : Vec Ideal S512x4 .f32) (v7 : Vec Ideal S2048 .i32) (v9 : Vec Ideal S2048x2 .f32)
    (p : Fin 2048) (q : Fin 2) (hb : IsGraphId (v7 (ix1 p))) :
    k0_pay1 (F := Ideal) v0 v7 v9 (ix2 p q)
      = cell (v9 (ix2 p q)) (v0 (ix2 (row (v7 (ix1 p))) (colLo q))) (v0 (ix2 (row (v7 (ix1 p))) (colHi q))) := by
  have eLo : extractStridedSlice S2048x2 ![0, 0] (gathered (F := Ideal) v0 v7) slices_S2048x4_o0_0_S2048x2 (ix2 p q)
      = gathered (F := Ideal) v0 v7 (ix2 p (colLo q)) :=
    extractStridedSlice_apply _ _ _ _ _ fun a => by
      match a with
      | ⟨0, _⟩ => show p.val = 0 + p.val; omega
      | ⟨1, _⟩ => show q.val = 0 + q.val; omega
  have eHi : extractStridedSlice S2048x2 ![0, 2] (gathered (F := Ideal) v0 v7) slices_S2048x4_o0_2_S2048x2 (ix2 p q)
      = gathered (F := Ideal) v0 v7 (ix2 p (colHi q)) :=
    extractStridedSlice_apply _ _ _ _ _ fun a => by
      match a with
      | ⟨0, _⟩ => show p.val = 0 + p.val; omega
      | ⟨1, _⟩ => show q.val + 2 = 2 + q.val; omega
  rw [pay_eq]
  show Ideal.logistic (v9 (ix2 p q) * (Ideal.ofBits .f32 0x40000000#32
      + extractStridedSlice S2048x2 ![0, 2] (gathered (F := Ideal) v0 v7) slices_S2048x4_o0_2_S2048x2 (ix2 p q))
      - extractStridedSlice S2048x2 ![0, 0] (gathered (F := Ideal) v0 v7) slices_S2048x4_o0_0_S2048x2 (ix2 p q)) = _
  rw [eLo, eHi, gathered_apply v0 v7 p _ hb, gathered_apply v0 v7 p _ hb]
  rfl

end Cert.KernelIdeal.Payload

end
-- ==== Proof.Block.lean ====
/-
  What one grid point leaves in the output's staging buffer, as ONE function of the point's input blocks.

  A point's body runs 8 trips; trip k reads rows 2048 k .. 2048 k + 2047 of the point's id block and x block,
  and stores the payload of those rows at the same rows of the output block. So every stored piece is a slab of
  one function of the block index (r, q):

      sigmoid (x (r, q) * (2 + T (id r, q + 2)) - T (id r, q)),      T the 512 x 4 table,

  whenever every id of the block is a graph id. The slabs cover the block, so the buffer reads back as that function.
-/
import proofs.«400905_j59459527246613_2_alg».proof.Proof.Gen.KernelIdeal.Frame
import proofs.«400905_j59459527246613_2_alg».proof.Proof.Payload

set_option maxRecDepth 16384

noncomputable section

namespace Cert.KernelIdeal.Block

open Cert.KernelIdeal Cert.KernelIdeal.Gen Cert.KernelIdeal.Payload Idealize.ShloMosaic Idealize.ShloMosaic.ValueIdx
open Cert.GatherSigmoid

/-- The output block's entry at row r, column q, from the id block, the x block and the table. -/
def blockAt (x0 : Vec Ideal S16384 .i32) (x1 : Vec Ideal S16384x2 .f32) (x2 : Vec Ideal S512x4 .f32)
    (r : Fin 16384) (q : Fin 2) : EReal :=
  cell (x1 (ix2 r q)) (x2 (ix2 (row (x0 (ix1 r))) (colLo q))) (x2 (ix2 (row (x0 (ix1 r))) (colHi q)))

/-- The output block as a function of its index. -/
def blockFn (x0 : Vec Ideal S16384 .i32) (x1 : Vec Ideal S16384x2 .f32) (x2 : Vec Ideal S512x4 .f32) :
    S16384x2.Idx → Elt Ideal .f32 := fun y => blockAt x0 x1 x2 (y 0) (y 1)

/-- Row p of trip k's slab is row 2048 k + p of the block. -/
def slabRow (k : Fin k0_t1_loop.trips) (p : Fin 2048) : Fin 16384 :=
  ⟨2048 * k.val + p.val, by have := k0_t1_abs.2.1; have := k.isLt; have := p.isLt; omega⟩

section Pieces

variable (𝒱 : Variants) (c : Dev nD) (bd : Option 𝒱.V) (i : grid0.Coords)
  (arg1 : Memref sig .tc .vmem S16384 .i32) (harg1 : arg1.IsWhole) (arg2 : Memref sig .tc .vmem S16384x2 .f32) (harg2 : arg2.IsWhole)
  (arg3 : Memref sig .tc .vmem S512x4 .f32) (harg3 : arg3.IsWhole) (arg4 : Memref sig .tc .vmem S16384x2 .f32) (harg4 : arg4.IsWhole)
  (x0 : Vec Ideal S16384 .i32) (x1 : Vec Ideal S16384x2 .f32) (x2 : Vec Ideal S512x4 .f32)

/-- The whole-table load of the table's staging buffer reads the table. -/
theorem table_load :
    View.readAt (Elt Ideal) arg3.view (Rect.unit (s := S512x4) ![0, 0] S512x4.size inb_S512x4_S512x4_0_0).toLoadRect (harg3.unread x2) = x2 := by
  have hz : (![0, 0] : Fin S512x4.rank → Nat) = fun _ => 0 := by
    funext a; match a with | ⟨0, _⟩ => rfl | ⟨1, _⟩ => rfl
  rw [View.readAt_eq_ld, harg3.read_unread, View.ld_unit_zero (S := S512x4) hz]

/-- Trip k's ONE piece: a store, at the trip's rows, of the payload of the table and of the ids and x at the
    trip's rows. -/
theorem trip_piece (k : Fin k0_t1_loop.trips) :
    tripL_k0_t1 (F := Ideal) 𝒱 c bd i arg1 harg1 arg2 harg2 arg3 harg3 arg4 harg4 x2 (harg1.unread x0) (harg2.unread x1) k
      = [⟨Rect.unit (s := S16384x2) (k0_off2 k) S2048x2.size (k0_off2_inb k),
          k0_pay1 x2
            (View.readAt (Elt Ideal) arg1.view (Rect.unit (s := S16384) (k0_off1 k) S2048.size (k0_off1_inb k)).toLoadRect (harg1.unread x0))
            (View.readAt (Elt Ideal) arg2.view (Rect.unit (s := S16384x2) (k0_off2 k) S2048x2.size (k0_off2_inb k)).toLoadRect (harg2.unread x1))⟩] := by
  unfold tripL_k0_t1 trip_k0_t1
  rfl

/-- Trip k's piece is the slab of the block function at the trip's rows, when the block's ids are graph ids. -/
theorem trip_agrees (hx0 : ∀ r : Fin 16384, IsGraphId (x0 (ix1 r))) (k : Fin k0_t1_loop.trips) :
    ∀ pc ∈ tripL_k0_t1 (F := Ideal) 𝒱 c bd i arg1 harg1 arg2 harg2 arg3 harg3 arg4 harg4 x2 (harg1.unread x0) (harg2.unread x1) k,
      ∀ x : pc.1.shape.Idx, pc.2 x = blockFn x0 x1 x2 (pc.1.emb x) := by
  intro pc hpc
  rw [trip_piece, List.mem_singleton] at hpc
  subst hpc
  intro x
  obtain ⟨p, q, rfl⟩ : ∃ (p : Fin 2048) (q : Fin 2), x = ix2 p q := ⟨x 0, x 1, eq_ix2 x⟩
  have e10 : k0_off1 k 0 = 2048 * k.val := by rw [k0_off1_eq k]; rfl
  have e20 : k0_off2 k 0 = 2048 * k.val := by rw [k0_off2_eq k]; rfl
  have e21 : k0_off2 k 1 = 0 := by rw [k0_off2_eq k]; rfl
  -- the ids and x the trip loads, at slab row p, are the block's at row 2048 k + p
  have hid : View.readAt (Elt Ideal) arg1.view (Rect.unit (s := S16384) (k0_off1 k) S2048.size (k0_off1_inb k)).toLoadRect (harg1.unread x0) (ix1 p)
      = x0 (ix1 (slabRow k p)) := by
    rw [View.readAt_eq_ld, harg1.read_unread]
    show x0 ((Rect.unit (s := S16384) (k0_off1 k) S2048.size (k0_off1_inb k)).idx (ix1 p)) = _
    refine congrArg x0 (funext fun a => Fin.ext ?_)
    match a with
    | ⟨0, _⟩ => show k0_off1 k 0 + 1 * p.val = 2048 * k.val + p.val; rw [e10]; omega
  have hx : View.readAt (Elt Ideal) arg2.view (Rect.unit (s := S16384x2) (k0_off2 k) S2048x2.size (k0_off2_inb k)).toLoadRect (harg2.unread x1) (ix2 p q)
      = x1 (ix2 (slabRow k p) q) := by
    rw [View.readAt_eq_ld, harg2.read_unread]
    show x1 ((Rect.unit (s := S16384x2) (k0_off2 k) S2048x2.size (k0_off2_inb k)).idx (ix2 p q)) = _
    refine congrArg x1 (funext fun a => Fin.ext ?_)
    match a with
    | ⟨0, _⟩ => show k0_off2 k 0 + 1 * p.val = 2048 * k.val + p.val; rw [e20]; omega
    | ⟨1, _⟩ => show k0_off2 k 1 + 1 * q.val = q.val; rw [e21]; omega
  -- the slab's index (p, q) sits at the block's index (2048 k + p, q)
  have hemb : (Rect.unit (s := S16384x2) (k0_off2 k) S2048x2.size (k0_off2_inb k)).emb (ix2 p q) = ix2 (slabRow k p) q := by
    funext a; apply Fin.ext
    match a with
    | ⟨0, _⟩ => show k0_off2 k 0 + 1 * p.val = 2048 * k.val + p.val; rw [e20]; omega
    | ⟨1, _⟩ => show k0_off2 k 1 + 1 * q.val = q.val; rw [e21]; omega
  show k0_pay1 (F := Ideal) x2 _ _ (ix2 p q) = blockFn x0 x1 x2 ((Rect.unit (s := S16384x2) (k0_off2 k) S2048x2.size (k0_off2_inb k)).emb (ix2 p q))
  rw [hemb, pay_apply x2 _ _ p q (by rw [hid]; exact hx0 _), hid, hx]
  rfl

/-- Every piece of the trips before n is a slab of the block function: by induction over the trips. -/
theorem before_agrees (hx0 : ∀ r : Fin 16384, IsGraphId (x0 (ix1 r))) (n : ℕ) :
    ∀ pc ∈ pb_k0_t1 (F := Ideal) 𝒱 c bd i arg1 harg1 arg2 harg2 arg3 harg3 arg4 harg4 x2 (harg1.unread x0) (harg2.unread x1) n,
      ∀ x : pc.1.shape.Idx, pc.2 x = blockFn x0 x1 x2 (pc.1.emb x) := by
  induction n with
  | zero => intro pc hpc; rw [pb_k0_t1.eq_1] at hpc; exact absurd hpc List.not_mem_nil
  | succ n ih =>
    intro pc hpc
    rw [pb_k0_t1.eq_2] at hpc
    unfold pb_k0_t1Step at hpc
    split at hpc
    · rename_i h
      rcases List.mem_append.mp hpc with h1 | h2
      · exact trip_agrees 𝒱 c bd i arg1 harg1 arg2 harg2 arg3 harg3 arg4 harg4 x0 x1 x2 hx0 ⟨n, h⟩ pc h1
      · exact ih pc h2
    · exact ih pc hpc

end Pieces

/-- The pieces the body's run leaves are the pieces of all its trips, over the table as loaded. -/
theorem run_pieces (c : Dev nD) (i : grid0.Coords)
    (arg1 : Memref sig .tc .vmem S16384 .i32) (harg1 : arg1.IsWhole) (arg2 : Memref sig .tc .vmem S16384x2 .f32) (harg2 : arg2.IsWhole)
    (arg3 : Memref sig .tc .vmem S512x4 .f32) (harg3 : arg3.IsWhole) (arg4 : Memref sig .tc .vmem S16384x2 .f32) (harg4 : arg4.IsWhole)
    (x0 : Vec Ideal S16384 .i32) (x1 : Vec Ideal S16384x2 .f32) (x2 : Vec Ideal S512x4 .f32) :
    (kernelRun0_A (F := Ideal) c i arg1 harg1 arg2 harg2 arg3 harg3 arg4 harg4 x0 x1 x2).1
      = pb_k0_t1 (F := Ideal) Variants.none c none i arg1 harg1 arg2 harg2 arg3 harg3 arg4 harg4
          (View.readAt (Elt Ideal) arg3.view (Rect.unit (s := S512x4) ![0, 0] S512x4.size inb_S512x4_S512x4_0_0).toLoadRect (harg3.unread x2))
          (harg1.unread x0) (harg2.unread x1) k0_t1_loop.trips := by
  unfold kernelRun0_A
  rfl

/-- WHAT A POINT LEAVES in the output's staging buffer: the block function of the point's id block, x block and
    table, when the id block holds graph ids. -/
theorem out_eq (c : Dev nD) (i : grid0.Coords)
    (arg1 : Memref sig .tc .vmem S16384 .i32) (harg1 : arg1.IsWhole) (arg2 : Memref sig .tc .vmem S16384x2 .f32) (harg2 : arg2.IsWhole)
    (arg3 : Memref sig .tc .vmem S512x4 .f32) (harg3 : arg3.IsWhole) (arg4 : Memref sig .tc .vmem S16384x2 .f32) (harg4 : arg4.IsWhole)
    (x0 : Vec Ideal S16384 .i32) (x1 : Vec Ideal S16384x2 .f32) (x2 : Vec Ideal S512x4 .f32)
    (hx0 : ∀ r : Fin 16384, IsGraphId (x0 (ix1 r))) :
    out0_A_3 (F := Ideal) c i arg1 harg1 arg2 harg2 arg3 harg3 arg4 harg4 x0 x1 x2 = blockFn x0 x1 x2 := by
  unfold out0_A_3
  rw [View.read_writes_eq_canon _ _ _ (cover0_A_3 c i arg1 harg1 arg2 harg2 arg3 harg3 arg4 harg4 x0 x1 x2)]
  funext y
  refine View.canon_apply_of_pieces (blockFn x0 x1 x2) _ ?_ y (cover0_A_3 c i arg1 harg1 arg2 harg2 arg3 harg3 arg4 harg4 x0 x1 x2 y)
  rw [run_pieces, table_load]
  exact before_agrees Variants.none c none i arg1 harg1 arg2 harg2 arg3 harg3 arg4 harg4 x0 x1 x2 hx0 _

end Cert.KernelIdeal.Block

end
-- ==== Proof.Table.lean ====
/-
  The 512 x 4 table the kernel's region finds: [h1 | h2], each half the per-graph two-layer map
  relu (xcore W + b) W' + b' of its own weights, computed by the host operations before the region. The same two
  maps are what the reference gathers from, so each is carried as ONE function of its five arguments and never
  opened. Read at an index, the table's columns 0..1 are h1 and its columns 2..3 are h2.
-/
import proofs.«400905_j59459527246613_2_alg».proof.Proof.Gen.KernelIdeal.Frame
import proofs.«400905_j59459527246613_2_alg».proof.Proof.Spec
import Idealize.ShloMosaic.Lib.StableHlo.Run
import Idealize.ShloMosaic.Lib.Pipeline.Value

set_option maxRecDepth 16384

noncomputable section

namespace Cert.KernelIdeal.Table

open Cert.KernelIdeal Cert.KernelIdeal.Gen Idealize.ShloMosaic Idealize.ShloMosaic.TcCoe Idealize.SL.Sem
open Idealize.ShloMosaic.StableHlo Idealize.ShloMosaic.ValueIdx Cert.GatherSigmoid

variable {F : FTy → Type} [FloatOps F]

/-- The per-graph two-layer map: relu (x W + b) W' + b', a 512 x 2 array. -/
def mlp (x : Vec F S512x1024 .f32) (w : Vec F S1024x1024 .f32) (b : Vec F S1024 .f32) (w' : Vec F S1024x2 .f32)
    (b' : Vec F S2 .f32) : Vec F S512x2 .f32 :=
  addf (Host.dotGeneral dot_S512x1024_S1024x2_S512x2_1_0_0_1_n_n none
      (maximumf (addf (Host.dotGeneral dot_S512x1024_S1024x1024_S512x1024_1_0_0_1_n_n none x w)
          (broadcastInDim S512x1024 ![0, 1] bcast_S1x1024_S512x1024_0_1 (broadcastInDim S1x1024 ![1] bcast_S1024_S1x1024_1 b)))
        (broadcastInDim S512x1024 ![] bcast_S_S512x1024 (constant S_ .f32 0x00000000#32))) w')
    (broadcastInDim S512x2 ![0, 1] bcast_S1x2_S512x2_0_1 (broadcastInDim S1x2 ![1] bcast_S2_S1x2_1 b'))

variable (m : (ℓ : Loc nD τ sig) → Buf (Elt F) ℓ)

/-- h1 and h2 of the launch memory's arguments. -/
def h1 (c : Dev nD) : Vec F S512x2 .f32 :=
  mlp (m ((c : Thread nD τ).loc main_arg1)) (m ((c : Thread nD τ).loc main_arg3)) (m ((c : Thread nD τ).loc main_arg4))
    (m ((c : Thread nD τ).loc main_arg5)) (m ((c : Thread nD τ).loc main_arg6))
def h2 (c : Dev nD) : Vec F S512x2 .f32 :=
  mlp (m ((c : Thread nD τ).loc main_arg1)) (m ((c : Thread nD τ).loc main_arg7)) (m ((c : Thread nD τ).loc main_arg8))
    (m ((c : Thread nD τ).loc main_arg9)) (m ((c : Thread nD τ).loc main_arg10))

set_option maxHeartbeats 1000000 in
/-- The table as the region finds it: the two maps side by side. -/
theorem table_eq (c : Dev nD) :
    (V m c main_v20 : S512x4.Idx → Elt F .f32)
      = concatenate S512x4 1 [⟨S512x2, h1 m c⟩, ⟨S512x2, h2 m c⟩] concatenates_S512x2_S512x2_S512x4_d1 := by
  show StableHlo.after hostOps0 (fun b => m (c, b)) (Proc.devRef .tc main_v20) = _
  after_results
  rfl

/-- The two halves side by side, at a column of the left half: the left half. -/
theorem concat_lo {α : Type} (a b : S512x2.Idx → α) (g : Fin 512) (q : Fin 2) :
    concatenate S512x4 1 [⟨S512x2, a⟩, ⟨S512x2, b⟩] concatenates_S512x2_S512x2_S512x4_d1 (ix2 g (colLo q)) = a (ix2 g q) :=
  concatenate_pair_apply_left 1 a b concatenates_S512x2_S512x2_S512x4_d1 (ix2 g (colLo q)) rfl (ix2 g q) fun d => by
    match d with
    | ⟨0, _⟩ => rfl
    | ⟨1, _⟩ => rfl

/-- At a column of the right half: the right half, two columns to the left. -/
theorem concat_hi {α : Type} (a b : S512x2.Idx → α) (g : Fin 512) (q : Fin 2) :
    concatenate S512x4 1 [⟨S512x2, a⟩, ⟨S512x2, b⟩] concatenates_S512x2_S512x2_S512x4_d1 (ix2 g (colHi q)) = b (ix2 g q) :=
  concatenate_pair_apply_right 1 a b concatenates_S512x2_S512x2_S512x4_d1 (ix2 g (colHi q)) rfl rfl (ix2 g q)
    (fun d hd => by
      match d with
      | ⟨0, _⟩ => rfl
      | ⟨1, _⟩ => exact absurd rfl hd)
    (by show q.val + 2 = q.val + 2; rfl)

end Cert.KernelIdeal.Table

end
-- ==== Proof.KernelValue.lean ====
/-
  The kernel's result array as one function of its arguments.

  Grid point t stages rows 16384 t .. 16384 t + 16383 of the ids and of x, and the whole table, and writes the
  same rows of the result. What it writes is the block function of those blocks (the pieces argument), and that is
  block t of

      result x ids h1 h2  (r, q) = sigmoid (x (r, q) * (2 + h2 (ids r, q)) - h1 (ids r, q)),

  once every id is a graph id. The 1024 blocks tile the array, so the array ends holding that function.
-/
import proofs.«400905_j59459527246613_2_alg».proof.Proof.Gen.KernelIdeal.Value
import proofs.«400905_j59459527246613_2_alg».proof.Proof.Block
import proofs.«400905_j59459527246613_2_alg».proof.Proof.Table

set_option maxRecDepth 16384

noncomputable section

namespace Cert.KernelIdeal.Whole

open Cert.KernelIdeal Cert.KernelIdeal.Gen Cert.KernelIdeal.Value Cert.KernelIdeal.Block Cert.KernelIdeal.Table
open Idealize.ShloMosaic Idealize.ShloMosaic.TcCoe Idealize.SL.Sem Idealize.ShloMosaic.ValueIdx Cert.GatherSigmoid
open Idealize.ShloMosaic.Pipeline (Dat)

variable (m : (ℓ : Loc nD τ sig) → Buf (Elt Ideal) ℓ) (ρ : Dev nD → PrngReg)

/-! ## The arrays and the blocks, at their literal types -/

/-- x, the ids and the table as the region finds them. -/
abbrev xarr (c : Dev nD) : Vec Ideal S16777216x2 .f32 := V m c main_arg0
abbrev ids (c : Dev nD) : Vec Ideal S16777216 .i32 := V m c main_arg2
abbrev tab (c : Dev nD) : Vec Ideal S512x4 .f32 := V m c main_v20

/-- Point t's blocks of them. -/
abbrev idblk (c : Dev nD) (t : Fin cfg0.N) : Vec Ideal S16384 .i32 := iblk m c 0 t
abbrev xblk (c : Dev nD) (t : Fin cfg0.N) : Vec Ideal S16384x2 .f32 := iblk m c 1 t
abbrev tblk (c : Dev nD) (t : Fin cfg0.N) : Vec Ideal S512x4 .f32 := iblk m c 2 t

/-- The printed index maps, decided over the 1024 grid points: the id block, the x block and the result block all
    sit at block row t, the table's one block at the origin. -/
theorem idx_facts : ∀ t : Fin cfg0.N, win0_0.index t (0 : Fin 1) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of point t's blocks is row 16384 t + r of the arrays. -/
def arrRow (t : Fin cfg0.N) (r : Fin 16384) : Fin 16777216 :=
  ⟨16384 * t.val + r.val, by have ht : t.val < 1024 := Nat.lt_of_lt_of_eq t.isLt N_0; have := r.isLt; omega⟩

theorem idblk_apply (c : Dev nD) (t : Fin cfg0.N) (r : Fin 16384) :
    idblk m c t (ix1 r) = ids m c (ix1 (arrRow t r)) := by
  obtain ⟨e0, -⟩ := idx_facts t
  show V m c main_arg2 (((cfg0.win 0).blk t).view.emb (ix1 r)) = V m c main_arg2 (ix1 (arrRow t r))
  refine congrArg (V m c main_arg2) (funext fun a => Fin.ext ?_)
  match a with
  | ⟨0, _⟩ => show win0_0.index t (0 : Fin 1) * 16384 + 1 * r.val = 16384 * t.val + r.val; rw [e0]; omega

theorem xblk_apply (c : Dev nD) (t : Fin cfg0.N) (r : Fin 16384) (q : Fin 2) :
    xblk m c t (ix2 r q) = xarr m c (ix2 (arrRow t r) q) := by
  obtain ⟨-, e0, e1, -⟩ := idx_facts t
  show V m c main_arg0 (((cfg0.win 1).blk t).view.emb (ix2 r q)) = V m c main_arg0 (ix2 (arrRow t r) q)
  refine congrArg (V m c main_arg0) (funext fun a => Fin.ext ?_)
  match a with
  | ⟨0, _⟩ => show win0_1.index t (0 : Fin 2) * 16384 + 1 * r.val = 16384 * t.val + r.val; rw [e0]; omega
  | ⟨1, _⟩ => show win0_1.index t (1 : Fin 2) * 2 + 1 * q.val = q.val; rw [e1]; omega

theorem tblk_apply (c : Dev nD) (t : Fin cfg0.N) (g : Fin 512) (j : Fin 4) :
    tblk m c t (ix2 g j) = tab m c (ix2 g j) := by
  obtain ⟨-, -, -, e0, e1, -⟩ := idx_facts t
  show V m c main_v20 (((cfg0.win 2).blk t).view.emb (ix2 g j)) = V m c main_v20 (ix2 g j)
  refine congrArg (V m c main_v20) (funext fun a => Fin.ext ?_)
  match a with
  | ⟨0, _⟩ => show win0_2.index t (0 : Fin 2) * 512 + 1 * g.val = g.val; rw [e0]; omega
  | ⟨1, _⟩ => show win0_2.index t (1 : Fin 2) * 4 + 1 * j.val = j.val; rw [e1]; omega

/-! ## What a point writes back -/

/-- WHAT POINT t WRITES BACK is block t of the result function of the arrays, when every id is a graph id. -/
theorem flushed_eq (c : Dev nD) (hid : ∀ r : Fin 16777216, IsGraphId (ids m c (ix1 r))) (t : Fin cfg0.N) :
    (dats m 0 c).flushed 3 t
      = ((cfg0.win 3).blk t).view.read (Elt Ideal) (result (xarr m c) (ids m c) (h1 m c) (h2 m c)) := by
  have hblk : ∀ r : Fin 16384, IsGraphId (idblk m c t (ix1 r)) := fun r => by rw [idblk_apply]; exact hid _
  rw [flushed3_A]
  rw [show out0_A_3 c (grid0.coords t) (ms0_0 t) (hs0_0 t) (ms0_1 t) (hs0_1 t) (ms0_2 t) (hs0_2 t) (ms0_3 t) (hs0_3 t)
        (iblk m c 0 t) (iblk m c 1 t) (iblk m c 2 t) = blockFn (idblk m c t) (xblk m c t) (tblk m c t) from
      out_eq c (grid0.coords t) (ms0_0 t) (hs0_0 t) (ms0_1 t) (hs0_1 t) (ms0_2 t) (hs0_2 t) (ms0_3 t) (hs0_3 t)
        (idblk m c t) (xblk m c t) (tblk m c t) hblk]
  obtain ⟨-, -, -, -, -, e0, e1⟩ := idx_facts t
  funext j
  obtain ⟨r, q, rfl⟩ : ∃ (r : Fin 16384) (q : Fin 2), j = ix2 r q := ⟨j 0, j 1, eq_ix2 j⟩
  have hemb : ((cfg0.win 3).blk t).view.emb (ix2 r q) = ix2 (arrRow t r) q := by
    funext a; apply Fin.ext
    match a with
    | ⟨0, _⟩ => show win0_3.index t (0 : Fin 2) * 16384 + 1 * r.val = 16384 * t.val + r.val; rw [e0]; omega
    | ⟨1, _⟩ => show win0_3.index t (1 : Fin 2) * 2 + 1 * q.val = q.val; rw [e1]; omega
  show blockFn (idblk m c t) (xblk m c t) (tblk m c t) (ix2 r q)
    = result (xarr m c) (ids m c) (h1 m c) (h2 m c) (((cfg0.win 3).blk t).view.emb (ix2 r q))
  rw [hemb]
  show cell (xblk m c t (ix2 r q)) (tblk m c t (ix2 (row (idblk m c t (ix1 r))) (colLo q))) (tblk m c t (ix2 (row (idblk m c t (ix1 r))) (colHi q)))
    = cell (xarr m c (ix2 (arrRow t r) q)) (h1 m c (ix2 (row (ids m c (ix1 (arrRow t r)))) q)) (h2 m c (ix2 (row (ids m c (ix1 (arrRow t r)))) q))
  rw [xblk_apply, idblk_apply, tblk_apply, tblk_apply]
  show cell _ (V m c main_v20 _) (V m c main_v20 _) = _
  rw [table_eq, concat_lo, concat_hi]

/-! ## The array after the run -/

/-- An index of the result array is in point t's block iff each coordinate is in the block's range on its axis. -/
theorem mem_blk (t : Fin cfg0.N) (i : S16777216x2.Idx) :
    i ∈ ((cfg0.win 3).blk t).view.set ↔ ∀ a : Fin 2, win0_3.index t a * S16384x2.size a ≤ (i a).val ∧ (i a).val < win0_3.index t a * S16384x2.size a + S16384x2.size a := by
  show i ∈ ((View.whole main_v21).slice (win0_3.rect t)).set ↔ _
  rw [View.set_slice_whole, Rect.mem_set_unit]
  exact Iff.rfl

/-- Every index of the result array is in the block of the point its row falls in. -/
theorem cover (i : S16777216x2.Idx) : ∃ t : Fin cfg0.N, (cfg0.win 3).flush t = true ∧ i ∈ ((cfg0.win 3).blk t).view.set := by
  have hi0 : (i 0).val < 16777216 := (i 0).isLt
  have hi1 : (i 1).val < 2 := (i 1).isLt
  let t : Fin cfg0.N := ⟨(i 0).val / 16384, by rw [show cfg0.N = 1024 from N_0]; omega⟩
  obtain ⟨-, -, -, -, -, e0, e1⟩ := idx_facts t
  have ht : t.val = (i 0).val / 16384 := rfl
  refine ⟨t, flush0_3 t, ?_⟩
  rw [mem_blk]
  intro a
  match a with
  | ⟨0, _⟩ => show win0_3.index t (0 : Fin 2) * 16384 ≤ (i 0).val ∧ (i 0).val < win0_3.index t (0 : Fin 2) * 16384 + 16384; rw [e0, ht]; omega
  | ⟨1, _⟩ => show win0_3.index t (1 : Fin 2) * 2 ≤ (i 1).val ∧ (i 1).val < win0_3.index t (1 : Fin 2) * 2 + 2; rw [e1]; omega

/-- THE RESULT ARRAY after the run, when every id is a graph id: the result function of the arrays as found. -/
theorem final (c : Dev nD) (hid : ∀ r : Fin 16777216, IsGraphId (ids m c (ix1 r))) :
    (dats m 0 c).arrAt 3 cfg0.N = result (xarr m c) (ids m c) (h1 m c) (h2 m c) :=
  (dats m 0 c).arrAt_eq_of_cover 3 (result (xarr m c) (ids m c) (h1 m c) (h2 m c)) (fun t _ => flushed_eq m c hid t) cover

/-- x and the ids as found are the launch memory's. -/
theorem xarr_eq (c : Dev nD) : xarr m c = m ((c : Thread nD τ).loc main_arg0) := V_main_arg0 m c
theorem ids_eq (c : Dev nD) : ids m c = m ((c : Thread nD τ).loc main_arg2) := V_main_arg2 m c

/-- The result of the launch memory's arguments. -/
def value (c : Dev nD) : Buf (Elt Ideal) ((c.tc : Thread nD τ).loc main_v21) :=
  result (m ((c : Thread nD τ).loc main_arg0)) (m ((c : Thread nD τ).loc main_arg2)) (h1 m c) (h2 m c)

/-- THE RUN, read: when every id of the launch memory is a graph id on every core, the kernel's program runs, its
    result array ends at `value`, and its arguments end unchanged. -/
theorem run (hid : ∀ (c : Dev nD) (r : Fin 16777216), IsGraphId ((m ((c : Thread nD τ).loc main_arg2) : S16777216.Idx → BitVec 32) (ix1 r))) :
    θ_run defs (onTc (τ := τ) (main (F := Ideal))) ⟨m, fun _ => 0, ρ⟩ fun r => ∀ c : Dev nD,
      r.2.mem ((c : Thread nD τ).loc main_v21) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (by
      have hid' : ∀ r : Fin 16777216, IsGraphId (ids m c (ix1 r)) := fun r => by rw [ids_eq]; exact hid c r
      rw [final m c hid', xarr_eq, ids_eq]; rfl), (h c).2⟩)
    (run_blocks m ρ)

end Cert.KernelIdeal.Whole

end
-- ==== Proof.LibRowGather.lean ====
/-
  A row gather read at an index: jnp's `table[idx]` over a rank-2 table [N, C] with an integer vector idx of length R
  prints as a gather whose start indices are the [R, 1] column of idx, whose operand axis 0 is collapsed and
  start-indexed, whose operand axis 1 is the one offset axis, with no batching axes and the index vector on axis 1.
  The result at (r, q) is the table at row idx r — read signed and clamped into [0, N - 1] — and column q.
-/
import Idealize.ShloMosaic.PureOps.ShapeOps
import Idealize.ShloMosaic.Lib.ValueIdx

namespace Cert.LibRowGather

open Idealize.ShloMosaic Idealize.ShloMosaic.ValueIdx

/-- The row gather at (r, q): the table at the clamped start index of row r, column q. The five hypotheses are the
    printed dimension numbers, each by `rfl` for a generated record. -/
theorem gather_rows_apply {α : Type} {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (q : Fin C) (hN : 0 < N) :
    Host.gather d x idx (ix2 r q) = x (ix2 ⟨min (idx (ix2 r (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have hbd : ∀ (k : Nat) (h : k < d.batchDims.length), d.batchDims[k]'h = (0 : Fin 2) := by
    unfold GatherDims.batchDims
    rw [hoff]
    intro k h
    have hk : k = 0 := by
      have : ((⟨2, ![R, C]⟩ : Shape).kept [1]).length = 1 := rfl
      omega
    subst hk; rfl
  have hod : ∀ (k : Nat) (h : k < d.offsetDims.length), d.offsetDims[k]'h = (1 : Fin 2) := by
    rw [hoff]
    intro k h
    have hk : k = 0 := by simpa using h
    subst hk; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r q) idx 0 + d.batchCoord (ix2 r q) 0 + d.offCoord (ix2 r q) 0 = min (idx (ix2 r (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 r q) idx 1 + d.batchCoord (ix2 r q) 1 + d.offCoord (ix2 r q) 1 = q.val
    rw [GatherDims.batchCoord_eq_zero _ _ _ (hb 1)]
    unfold GatherDims.start GatherDims.offCoord
    rw [dif_neg hm, dif_pos hk, hod]
    show 0 + 0 + q.val = q.val
    omega

end Cert.LibRowGather
-- ==== Proof.RefValue.lean ====
/-
  The reference's result as the same function of its arguments.

  The reference computes h1 and h2 (512 x 2 each), turns every node id into a start index (the id, with 512 added
  when it is negative), gathers row "start index, clamped" of h2 and of h1 for every node, and returns
  1 / (1 + exp (-(x * (2 + h2 row) - h1 row))). For a graph id the start index is the id itself and the clamp
  leaves it alone, so at (r, q) the result is the cell of x (r, q), h1 (id r, q), h2 (id r, q).
-/
import proofs.«400905_j59459527246613_2_alg».proof.Proof.Gen.ReferenceIdeal.Read
import proofs.«400905_j59459527246613_2_alg».proof.Proof.Spec
import proofs.«400905_j59459527246613_2_alg».proof.Proof.LibRowGather
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Cert.GatherSigmoid

variable (x0 : Vec Ideal S16777216x2 .f32) (x1 : Vec Ideal S512x1024 .f32) (x2 : Vec Ideal S16777216 .i32)
  (x3 : Vec Ideal S1024x1024 .f32) (x4 : Vec Ideal S1024 .f32) (x5 : Vec Ideal S1024x2 .f32) (x6 : Vec Ideal S2 .f32)
  (x7 : Vec Ideal S1024x1024 .f32) (x8 : Vec Ideal S1024 .f32) (x9 : Vec Ideal S1024x2 .f32) (x10 : Vec Ideal S2 .f32)

/-- A graph id is not negative, so the select that adds 512 to negative ids leaves it alone. -/
theorem not_negative {b : BitVec 32} (h : IsGraphId b) : IntOp.cmpi .slt b 0#32 = 0#1 :=
  eq_zero_of_ne_one fun e => by
    have hlt := IntOp.cmpi_slt.1 e
    rw [show (0#32 : BitVec 32).toInt = 0 by decide] at hlt
    exact absurd h.1 (not_le.2 hlt)

/-- The start index of a node whose id is a graph id is the id (the first gather's chain of operations). -/
theorem start_h2 (r : Fin 16777216) (h : IsGraphId (x2 (ix1 r))) :
    val_main_v25 (F := Ideal) x2 (ix2 r (0 : Fin 1)) = x2 (ix1 r) := by
  have hi : idx_main_v25 (ix2 r (0 : Fin 1)) = ix1 r := funext fun a => by match a with | ⟨0, _⟩ => rfl
  rw [val_main_v25_apply, hi, val_main_v24_apply, val_main_v21_apply, val_main_v20_apply, val_main_c_apply,
    not_negative h, select_zero]

/-- The same for the second gather's chain. -/
theorem start_h1 (r : Fin 16777216) (h : IsGraphId (x2 (ix1 r))) :
    val_main_v35 (F := Ideal) x2 (ix2 r (0 : Fin 1)) = x2 (ix1 r) := by
  have hi : idx_main_v35 (ix2 r (0 : Fin 1)) = ix1 r := funext fun a => by match a with | ⟨0, _⟩ => rfl
  rw [val_main_v35_apply, hi, val_main_v34_apply, val_main_v31_apply, val_main_v30_apply, val_main_c_3_apply,
    not_negative h, select_zero]

/-- The gathered h2 at (r, q) is h2 at the row the id selects. -/
theorem gathered_h2 (r : Fin 16777216) (q : Fin 2) (h : IsGraphId (x2 (ix1 r))) :
    val_main_v26 (F := Ideal) x1 x2 x7 x8 x9 x10 (ix2 r q)
      = val_main_v19 (F := Ideal) x1 x7 x8 x9 x10 (ix2 (row (x2 (ix1 r))) q) := by
  unfold val_main_v26
  generalize val_main_v19 (F := Ideal) x1 x7 x8 x9 x10 = H
  refine (Cert.LibRowGather.gather_rows_apply (N := 512) (C := 2) (R := 16777216)
    gather_S512x2_S16777216x1_S16777216x2_1_0_n_n_0_1_12 rfl rfl rfl rfl rfl H (val_main_v25 (F := Ideal) x2) r q (by decide)).trans ?_
  refine congrArg H (congrArg (fun g : Fin 512 => (ix2 g q : S512x2.Idx)) (Fin.ext ?_))
  show min (val_main_v25 (F := Ideal) x2 (ix2 r (0 : Fin 1))).toInt.toNat (512 - 1) = min (x2 (ix1 r)).toInt.toNat 511
  rw [start_h2 x2 r h]

/-- The gathered h1 at (r, q) is h1 at the row the id selects. -/
theorem gathered_h1 (r : Fin 16777216) (q : Fin 2) (h : IsGraphId (x2 (ix1 r))) :
    val_main_v36 (F := Ideal) x1 x2 x3 x4 x5 x6 (ix2 r q)
      = val_main_v9 (F := Ideal) x1 x3 x4 x5 x6 (ix2 (row (x2 (ix1 r))) q) := by
  unfold val_main_v36
  generalize val_main_v9 (F := Ideal) x1 x3 x4 x5 x6 = H
  refine (Cert.LibRowGather.gather_rows_apply (N := 512) (C := 2) (R := 16777216)
    gather_S512x2_S16777216x1_S16777216x2_1_0_n_n_0_1_12 rfl rfl rfl rfl rfl H (val_main_v35 (F := Ideal) x2) r q (by decide)).trans ?_
  refine congrArg H (congrArg (fun g : Fin 512 => (ix2 g q : S512x2.Idx)) (Fin.ext ?_))
  show min (val_main_v35 (F := Ideal) x2 (ix2 r (0 : Fin 1))).toInt.toNat (512 - 1) = min (x2 (ix1 r)).toInt.toNat 511
  rw [start_h1 x2 r h]

/-- THE REFERENCE'S RESULT, when every id is a graph id: the result function of x, the ids, and its own h1, h2. -/
theorem result_eq (hid : ∀ r : Fin 16777216, IsGraphId (x2 (ix1 r))) :
    val_main_v43 (F := Ideal) x0 x1 x2 x3 x4 x5 x6 x7 x8 x9 x10
      = result x0 x2 (val_main_v9 (F := Ideal) x1 x3 x4 x5 x6) (val_main_v19 (F := Ideal) x1 x7 x8 x9 x10) := by
  funext j
  obtain ⟨r, q, rfl⟩ : ∃ (r : Fin 16777216) (q : Fin 2), j = ix2 r q := ⟨j 0, j 1, eq_ix2 j⟩
  rw [val_main_v43_apply, val_main_v42_apply, val_main_cst_6_apply, val_main_v41_apply, val_main_v40_apply, val_main_cst_5_apply,
    val_main_v39_apply, val_main_v38_apply, val_main_v37_apply, val_main_v29_apply, val_main_v28_apply, val_main_v27_apply,
    val_main_cst_2_apply, gathered_h2 x1 x2 x7 x8 x9 x10 r q (hid r), gathered_h1 x1 x2 x3 x4 x5 x6 r q (hid r)]
  exact host_sigmoid _

end Cert.ReferenceIdeal.RefValue

end
-- ==== Proof.PreRange.lean ====
/-
  The precondition, read: beside the finiteness of the float inputs it says that every node id is at least 0 and
  below 512. The printed predicate is one conjunction; its last two conjuncts are the two "all" reductions over the
  ids, so they are what is opened here; the finiteness conjuncts in front of them are not needed by this proof.
-/
import proofs.«400905_j59459527246613_2_alg».proof.Pre_finite_inputs
import proofs.«400905_j59459527246613_2_alg».proof.Proof.Spec
import Idealize.ShloMosaic.Lib.ReduceAll
import Idealize.ShloMosaic.Lib.Affine
import Idealize.ShloMosaic.Lib.Pipeline.Value

noncomputable section

namespace Cert.Pre_finite_inputs.Range

open Cert.Pre_finite_inputs Idealize.ShloMosaic Idealize.ShloMosaic.ValueIdx Cert.GatherSigmoid

variable [Facts] {F : FTy → Type} [FloatOps F]

instance : Subsingleton S_.Idx := ⟨fun a b => funext fun d => d.elim0⟩

/-- A scalar word broadcast to the ids' shape reads the word everywhere. -/
theorem splat_apply (b : BitVec 32) (i : S16777216.Idx) :
    broadcastInDim S16777216 ![] Facts.bcast_S_S16777216 (constantI S_ 32 b) i = b :=
  broadcastInDim_apply _ Facts.bcast_S_S16777216 (constantI S_ 32 b) i ix0 (fun a => a.elim0)

/-- Under the precondition every node id is a graph id. -/
theorem graph_ids (a0 : FVec F S16777216x2 .f32) (a1 : FVec F S512x1024 .f32) (a2 : IVec S16777216 32)
    (a3 : FVec F S1024x1024 .f32) (a4 : FVec F S1024 .f32) (a5 : FVec F S1024x2 .f32) (a6 : FVec F S2 .f32)
    (a7 : FVec F S1024x1024 .f32) (a8 : FVec F S1024 .f32) (a9 : FVec F S1024x2 .f32) (a10 : FVec F S2 .f32)
    (h : fn (F := F) a0 a1 a2 a3 a4 a5 a6 a7 a8 a9 a10 = fun _ => 1#1) (r : Fin 16777216) :
    IsGraphId (a2 (ix1 r)) := by
  have e := congrFun h ix0
  unfold fn at e; dsimp only at e
  unfold fn_part1 at e; dsimp only at e
  unfold fn_part2 at e; dsimp only at e
  unfold fn_part3 at e; dsimp only at e
  have e' : IntOp.andi (IntOp.andi _ _) _ = 1#1 := e
  obtain ⟨e1, eLt⟩ := IntOp.andi_eq_one.1 e'
  obtain ⟨-, eGe⟩ := IntOp.andi_eq_one.1 e1
  have hGe := Host.reduce_andi_all _ _ _ _ _ eGe (ix1 r)
  have hLt := Host.reduce_andi_all _ _ _ _ _ eLt (ix1 r)
  have hGe' : IntOp.cmpi .sge (a2 (ix1 r)) (broadcastInDim S16777216 ![] Facts.bcast_S_S16777216 (constantI S_ 32 0#32) (ix1 r)) = 1#1 := hGe
  have hLt' : IntOp.cmpi .slt (a2 (ix1 r)) (broadcastInDim S16777216 ![] Facts.bcast_S_S16777216 (constantI S_ 32 512#32) (ix1 r)) = 1#1 := hLt
  rw [splat_apply] at hGe' hLt'
  have h0 := IntOp.cmpi_sge.1 hGe'
  have h1 := IntOp.cmpi_slt.1 hLt'
  rw [show (0#32 : BitVec 32).toInt = 0 by decide] at h0
  rw [show (512#32 : BitVec 32).toInt = 512 by decide] at h1
  exact ⟨h0, h1⟩

end Cert.Pre_finite_inputs.Range

end
-- ==== Proof.lean ====
/-
  The certificate: a node-wise gather and sigmoid,

      out (r, q) = sigmoid (x (r, q) * (2 + h2 (batch r, q)) - h1 (batch r, q)),    r < 16777216, q < 2,

  h1 and h2 the per-graph two-layer maps relu (xcore W + b) W' + b' (512 x 2 each), computed alike by both programs
  on the host. The reference gathers rows of h1 and h2 by the node ids (negative ids wrapped, then clamped into the
  table); the kernel reads the same rows as a product of the one-hot matrix [batch r = g] with the 512 x 4 table
  [h1 | h2], 2048 nodes per loop trip, 8 trips per grid point, 1024 grid points.

  The two agree where every id is a graph id, 0 <= batch r < 512 — the precondition's added conjunct: there the
  one-hot row has its single 1 at the id's own row, so the product is that row (0 times anything is 0 on the
  extended reals, and one term survives: no finiteness is used), and the reference's wrap and clamp leave the id
  alone. The sigmoid is 1 / (1 + exp (-z)) on the extended reals whether it is one operation (the kernel) or
  negate, exponential, add, divide (the reference), and a change of float format is the identity, so the kernel's
  bf16 one-hot matrix and bf16 table change nothing.

  Modules: Spec (the mathematics), Payload (the stored value at an index), Block (what a grid point leaves in its
  output block), Table (the table the region finds), KernelValue (the result array after the run), RefValue (the
  reference's result), PreRange (the precondition read). The frames of the two kernel programs and the runs of
  both sides are the generated modules'.
-/
import proofs.«400905_j59459527246613_2_alg».proof.Defs
import proofs.«400905_j59459527246613_2_alg».proof.Proof.Gen.Kernel
import proofs.«400905_j59459527246613_2_alg».proof.Proof.Gen.Kernel.Skeleton
import proofs.«400905_j59459527246613_2_alg».proof.Proof.Gen.Kernel.Loops
import proofs.«400905_j59459527246613_2_alg».proof.Proof.Gen.Kernel.Launch
import proofs.«400905_j59459527246613_2_alg».proof.Proof.Gen.Kernel.Points
import proofs.«400905_j59459527246613_2_alg».proof.Proof.Gen.Kernel.Frame
import proofs.«400905_j59459527246613_2_alg».proof.Proof.Gen.KernelIdeal
import proofs.«400905_j59459527246613_2_alg».proof.Proof.Gen.KernelIdeal.Skeleton
import proofs.«400905_j59459527246613_2_alg».proof.Proof.Gen.KernelIdeal.Loops
import proofs.«400905_j59459527246613_2_alg».proof.Proof.Gen.KernelIdeal.Launch
import proofs.«400905_j59459527246613_2_alg».proof.Proof.Gen.KernelIdeal.Points
import proofs.«400905_j59459527246613_2_alg».proof.Proof.Gen.KernelIdeal.Frame
import proofs.«400905_j59459527246613_2_alg».proof.Proof.Gen.ReferenceIdeal
import proofs.«400905_j59459527246613_2_alg».proof.Proof.Gen.Pre_finite_inputs
import proofs.«400905_j59459527246613_2_alg».proof.Proof.Gen.KernelIdeal.Value
import proofs.«400905_j59459527246613_2_alg».proof.Proof.Gen.ReferenceIdeal.Run
import proofs.«400905_j59459527246613_2_alg».proof.Proof.Gen.ReferenceIdeal.Read
import proofs.«400905_j59459527246613_2_alg».proof.Proof.KernelValue
import proofs.«400905_j59459527246613_2_alg».proof.Proof.RefValue
import proofs.«400905_j59459527246613_2_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx Cert.GatherSigmoid

/-- The kernel's program runs and keeps its arguments: the generated frame. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- Both programs end with the result function of the arguments: the kernel by the blocks its grid points write,
    the reference by its operations read at an index; the two tables h1, h2 are one term on both sides. -/
theorem algebraic : Cert.algebraic_KernelIdeal_ReferenceIdeal := by
  intro m ρ m' ρ' hpre hagree
  have hid : ∀ (c : Dev Cert.KernelIdeal.nD) (r : Fin 16777216),
      IsGraphId ((m ((c : Thread Cert.KernelIdeal.nD Cert.KernelIdeal.τ).loc Cert.KernelIdeal.main_arg2) : Cert.KernelIdeal.S16777216.Idx → BitVec 32) (ix1 r)) :=
    fun c r => Cert.Pre_finite_inputs.Range.graph_ids _ _ _ _ _ _ _ _ _ _ _ (hpre c) r
  refine ⟨fun c => Cert.KernelIdeal.Whole.value m c, Cert.KernelIdeal.Whole.run m ρ hid, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v43_eq, a0, a1, a2, a3, a4, a5, a6, a7, a8, a9, a10,
    Cert.ReferenceIdeal.RefValue.result_eq _ _ _ _ _ _ _ _ _ _ _ (hid c)]
  rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
